-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x768 : Shape := ⟨3, ![2, 2048, 768]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel

variable [Facts]

def fn {F : FTy → Type} [FloatOps F] (main_arg0 : FVec F S2x2048x768 .f32) (main_arg1 : FVec F S2x2048x768 .f32) (main_arg2 : FVec F S2x2048x768 .f32) : IVec S_ 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_v4 : FVec F S2x2048x768 .f32 := Host.absf main_arg1
  let main_cst_0 : FVec F S_ .f32 := constant S_ .f32 0x7F800000#32
  let main_v5 : FVec F S2x2048x768 .f32 := broadcastInDim S2x2048x768 ![] bcast_S_S2x2048x768 main_cst_0
  let main_v6 : IVec S2x2048x768 1 := cmpf .olt main_v4 main_v5
  let main_c_1 : IVec S_ 1 := constantI S_ 1 1#1
  let main_v7 : IVec S_ 1 := (fun x v => Host.reduce IntOp.andi x v reducesTo_S2x2048x768_S_d0_1_2 h_S_) main_v6 main_c_1
  let main_v8 : IVec S_ 1 := andi main_v3 main_v7
  let main_v9 : FVec F S2x2048x768 .f32 := Host.absf main_arg2
  let main_cst_2 : FVec F S_ .f32 := constant S_ .f32 0x7F800000#32
  let main_v10 : FVec F S2x2048x768 .f32 := broadcastInDim S2x2048x768 ![] bcast_S_S2x2048x768 main_cst_2
  let main_v11 : IVec S2x2048x768 1 := cmpf .olt main_v9 main_v10
  let main_c_3 : IVec S_ 1 := constantI S_ 1 1#1
  let main_v12 : IVec S_ 1 := (fun x v => Host.reduce IntOp.andi x v reducesTo_S2x2048x768_S_d0_1_2 h_S_) main_v11 main_c_3
  let main_v13 : IVec S_ 1 := andi main_v8 main_v12
  main_v13
-- ==== Kernel.lean ====
abbrev S2x2048x768 : Shape := ⟨3, ![2, 2048, 768]⟩
abbrev S1x256x768 : Shape := ⟨3, ![1, 256, 768]⟩
abbrev S1x2048x768 : Shape := ⟨3, ![1, 2048, 768]⟩
abbrev S256x768 : Shape := ⟨2, ![256, 768]⟩
abbrev S2048x768 : Shape := ⟨2, ![2048, 768]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S1x256x64 : Shape := ⟨3, ![1, 256, 64]⟩

abbrev nBuf : Space → Nat
  | .hbm => 4
  | .vmem => 8
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x768, .f32⟩
  | .hbm, ⟨3, _⟩ => ⟨S2x2048x768, .f32⟩
  | .local _ .vmem, ⟨0, _⟩ => ⟨S1x256x768, .f32⟩
  | .local _ .vmem, ⟨1, _⟩ => ⟨S1x256x768, .f32⟩
  | .local _ .vmem, ⟨2, _⟩ => ⟨S1x2048x768, .f32⟩
  | .local _ .vmem, ⟨3, _⟩ => ⟨S1x2048x768, .f32⟩
  | .local _ .vmem, ⟨4, _⟩ => ⟨S1x2048x768, .f32⟩
  | .local _ .vmem, ⟨5, _⟩ => ⟨S1x2048x768, .f32⟩
  | .local _ .vmem, ⟨6, _⟩ => ⟨S1x256x768, .f32⟩
  | .local _ .vmem, ⟨7, _⟩ => ⟨S1x256x768, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  slices_S256x768_o0_0_S256x64 : S256x768.Slices ![0, 0] S256x64
  bitsLt_bf16_f32 : FTy.bits .bf16 < FTy.bits .f32
  slices_S2048x768_o0_0_S2048x64 : S2048x768.Slices ![0, 0] S2048x64
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  inb_S1x256x768_S1x256x64_0_0_0 : ∀ a, (![0, 0, 0] : Fin 3 → Nat) a + S1x256x64.size a ≤ S1x256x768.size a
  h_S1x256x64 : 0 < S1x256x64.numel
  shapeCasts_S1x256x64_S256x64 : S1x256x64.ShapeCasts S256x64
  shapeCasts_S256x64_S1x256x64 : S256x64.ShapeCasts S1x256x64
  slices_S256x768_o0_64_S256x64 : S256x768.Slices ![0, 64] S256x64
  slices_S2048x768_o0_64_S2048x64 : S2048x768.Slices ![0, 64] S2048x64
  inb_S1x256x768_S1x256x64_0_0_64 : ∀ a, (![0, 0, 64] : Fin 3 → Nat) a + S1x256x64.size a ≤ S1x256x768.size a
  slices_S256x768_o0_128_S256x64 : S256x768.Slices ![0, 128] S256x64
  slices_S2048x768_o0_128_S2048x64 : S2048x768.Slices ![0, 128] S2048x64
  inb_S1x256x768_S1x256x64_0_0_128 : ∀ a, (![0, 0, 128] : Fin 3 → Nat) a + S1x256x64.size a ≤ S1x256x768.size a
  slices_S256x768_o0_192_S256x64 : S256x768.Slices ![0, 192] S256x64
  slices_S2048x768_o0_192_S2048x64 : S2048x768.Slices ![0, 192] S2048x64
  inb_S1x256x768_S1x256x64_0_0_192 : ∀ a, (![0, 0, 192] : Fin 3 → Nat) a + S1x256x64.size a ≤ S1x256x768.size a
  slices_S256x768_o0_256_S256x64 : S256x768.Slices ![0, 256] S256x64
  slices_S2048x768_o0_256_S2048x64 : S2048x768.Slices ![0, 256] S2048x64
  inb_S1x256x768_S1x256x64_0_0_256 : ∀ a, (![0, 0, 256] : Fin 3 → Nat) a + S1x256x64.size a ≤ S1x256x768.size a
  slices_S256x768_o0_320_S256x64 : S256x768.Slices ![0, 320] S256x64
  slices_S2048x768_o0_320_S2048x64 : S2048x768.Slices ![0, 320] S2048x64
  inb_S1x256x768_S1x256x64_0_0_320 : ∀ a, (![0, 0, 320] : Fin 3 → Nat) a + S1x256x64.size a ≤ S1x256x768.size a
  slices_S256x768_o0_384_S256x64 : S256x768.Slices ![0, 384] S256x64
  slices_S2048x768_o0_384_S2048x64 : S2048x768.Slices ![0, 384] S2048x64
  inb_S1x256x768_S1x256x64_0_0_384 : ∀ a, (![0, 0, 384] : Fin 3 → Nat) a + S1x256x64.size a ≤ S1x256x768.size a
  slices_S256x768_o0_448_S256x64 : S256x768.Slices ![0, 448] S256x64
  slices_S2048x768_o0_448_S2048x64 : S2048x768.Slices ![0, 448] S2048x64
  inb_S1x256x768_S1x256x64_0_0_448 : ∀ a, (![0, 0, 448] : Fin 3 → Nat) a + S1x256x64.size a ≤ S1x256x768.size a
  slices_S256x768_o0_512_S256x64 : S256x768.Slices ![0, 512] S256x64
  slices_S2048x768_o0_512_S2048x64 : S2048x768.Slices ![0, 512] S2048x64
  inb_S1x256x768_S1x256x64_0_0_512 : ∀ a, (![0, 0, 512] : Fin 3 → Nat) a + S1x256x64.size a ≤ S1x256x768.size a
  slices_S256x768_o0_576_S256x64 : S256x768.Slices ![0, 576] S256x64
  slices_S2048x768_o0_576_S2048x64 : S2048x768.Slices ![0, 576] S2048x64
  inb_S1x256x768_S1x256x64_0_0_576 : ∀ a, (![0, 0, 576] : Fin 3 → Nat) a + S1x256x64.size a ≤ S1x256x768.size a
  slices_S256x768_o0_640_S256x64 : S256x768.Slices ![0, 640] S256x64
  slices_S2048x768_o0_640_S2048x64 : S2048x768.Slices ![0, 640] S2048x64
  inb_S1x256x768_S1x256x64_0_0_640 : ∀ a, (![0, 0, 640] : Fin 3 → Nat) a + S1x256x64.size a ≤ S1x256x768.size a
  slices_S256x768_o0_704_S256x64 : S256x768.Slices ![0, 704] S256x64
  slices_S2048x768_o0_704_S2048x64 : S2048x768.Slices ![0, 704] S2048x64
  inb_S1x256x768_S1x256x64_0_0_704 : ∀ a, (![0, 0, 704] : Fin 3 → Nat) a + S1x256x64.size a ≤ S1x256x768.size a
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x768.size a ≤ S2x2048x768.size a
  hwx0_0 : ∀ i : grid0.Coords, EltTy.bits .f32 = 32 ∨ (Rect.block (s := S2x2048x768) S1x256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x768.size a ≤ S2x2048x768.size a
  hwx0_1 : ∀ i : grid0.Coords, EltTy.bits .f32 = 32 ∨ (Rect.block (s := S2x2048x768) S1x2048x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x768.size a ≤ S2x2048x768.size a
  hwx0_2 : ∀ i : grid0.Coords, EltTy.bits .f32 = 32 ∨ (Rect.block (s := S2x2048x768) S1x2048x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x768.size a ≤ S2x2048x768.size a
  hwx0_3 : ∀ i : grid0.Coords, EltTy.bits .f32 = 32 ∨ (Rect.block (s := S2x2048x768) S1x256x768.size (cc0_transform_3 i) (hinb0_3 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x2048x768 : Shape := ⟨3, ![2, 2048, 768]⟩
abbrev S2x2048x12x64 : Shape := ⟨4, ![2, 2048, 12, 64]⟩
abbrev S2x12x2048x64 : Shape := ⟨4, ![2, 12, 2048, 64]⟩
abbrev S2x12x2048x2048 : Shape := ⟨4, ![2, 12, 2048, 2048]⟩
abbrev S_ : Shape := ⟨0, ![]⟩
abbrev S2x12x2048 : Shape := ⟨3, ![2, 12, 2048]⟩
abbrev S2x12x2048x1 : Shape := ⟨4, ![2, 12, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x768, .f32⟩
  | .hbm, ⟨3, _⟩ => ⟨S2x2048x12x64, .f32⟩
  | .hbm, ⟨4, _⟩ => ⟨S2x12x2048x64, .f32⟩
  | .hbm, ⟨5, _⟩ => ⟨S2x2048x12x64, .f32⟩
  | .hbm, ⟨6, _⟩ => ⟨S2x12x2048x64, .f32⟩
  | .hbm, ⟨7, _⟩ => ⟨S2x2048x12x64, .f32⟩
  | .hbm, ⟨8, _⟩ => ⟨S2x12x2048x64, .f32⟩
  | .hbm, ⟨9, _⟩ => ⟨S2x12x2048x2048, .f32⟩
  | .hbm, ⟨10, _⟩ => ⟨S_, .f32⟩
  | .hbm, ⟨11, _⟩ => ⟨S2x12x2048x2048, .f32⟩
  | .hbm, ⟨12, _⟩ => ⟨S2x12x2048x2048, .f32⟩
  | .hbm, ⟨13, _⟩ => ⟨S_, .f32⟩
  | .hbm, ⟨14, _⟩ => ⟨S2x12x2048, .f32⟩
  | .hbm, ⟨15, _⟩ => ⟨S_, .f32⟩
  | .hbm, ⟨16, _⟩ => ⟨S2x12x2048, .f32⟩
  | .hbm, ⟨17, _⟩ => ⟨S2x12x2048, .f32⟩
  | .hbm, ⟨18, _⟩ => ⟨S2x12x2048x1, .f32⟩
  | .hbm, ⟨19, _⟩ => ⟨S2x12x2048x2048, .f32⟩
  | .hbm, ⟨20, _⟩ => ⟨S2x12x2048x2048, .f32⟩
  | .hbm, ⟨21, _⟩ => ⟨S2x12x2048x2048, .f32⟩
  | .hbm, ⟨22, _⟩ => ⟨S_, .f32⟩
  | .hbm, ⟨23, _⟩ => ⟨S2x12x2048, .f32⟩
  | .hbm, ⟨24, _⟩ => ⟨S2x12x2048x1, .f32⟩
  | .hbm, ⟨25, _⟩ => ⟨S2x12x2048x2048, .f32⟩
  | .hbm, ⟨26, _⟩ => ⟨S2x12x2048x2048, .f32⟩
  | .hbm, ⟨27, _⟩ => ⟨S2x12x2048x64, .f32⟩
  | .hbm, ⟨28, _⟩ => ⟨S2x2048x12x64, .f32⟩
  | .hbm, ⟨29, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  shapeCasts_S2x2048x768_S2x2048x12x64 : S2x2048x768.ShapeCasts S2x2048x12x64
  transposes_S2x2048x12x64_S2x12x2048x64_0_2_1_3 : S2x2048x12x64.Transposes [0, 2, 1, 3] S2x12x2048x64
  bcast_S_S2x12x2048x2048 : S_.BroadcastsInDim S2x12x2048x2048 (![] : Fin 0 → Fin S2x12x2048x2048.rank)
  reducesTo_S2x12x2048x2048_S2x12x2048_d3 : S2x12x2048x2048.ReducesTo [3] S2x12x2048
  h_S_ : 0 < S_.numel
  bcast_S_S2x12x2048 : S_.BroadcastsInDim S2x12x2048 (![] : Fin 0 → Fin S2x12x2048.rank)
  bcast_S2x12x2048_S2x12x2048x1_0_1_2 : S2x12x2048.BroadcastsInDim S2x12x2048x1 (![0, 1, 2] : Fin 3 → Fin S2x12x2048x1.rank)
  bcast_S2x12x2048x1_S2x12x2048x2048_0_1_2_3 : S2x12x2048x1.BroadcastsInDim S2x12x2048x2048 (![0, 1, 2, 3] : Fin 4 → Fin S2x12x2048x2048.rank)
  transposes_S2x12x2048x64_S2x2048x12x64_0_2_1_3 : S2x12x2048x64.Transposes [0, 2, 1, 3] S2x2048x12x64
  shapeCasts_S2x2048x12x64_S2x2048x768 : S2x2048x12x64.ShapeCasts S2x2048x768
  dot_S2x12x2048x64_S2x12x2048x64_S2x12x2048x2048_3_3_2_2_01_01_wf : DotDims.WF S2x12x2048x64 S2x12x2048x64 S2x12x2048x2048 [3] [3] [2] [2] [0, 1] [0, 1]
  dot_S2x12x2048x2048_S2x12x2048x64_S2x12x2048x64_3_2_2_3_01_01_wf : DotDims.WF S2x12x2048x2048 S2x12x2048x64 S2x12x2048x64 [3] [2] [2] [3] [0, 1] [0, 1]

variable [Facts₀]

def dot_S2x12x2048x64_S2x12x2048x64_S2x12x2048x2048_3_3_2_2_01_01 : DotDims S2x12x2048x64 S2x12x2048x64 S2x12x2048x2048 where
  lhsContracting := [3]
  rhsContracting := [3]
  lhsNonContracting := [2]
  rhsNonContracting := [2]
  lhsBatch := [0, 1]
  rhsBatch := [0, 1]
  wf := dot_S2x12x2048x64_S2x12x2048x64_S2x12x2048x2048_3_3_2_2_01_01_wf
def dot_S2x12x2048x2048_S2x12x2048x64_S2x12x2048x64_3_2_2_3_01_01 : DotDims S2x12x2048x2048 S2x12x2048x64 S2x12x2048x64 where
  lhsContracting := [3]
  rhsContracting := [2]
  lhsNonContracting := [2]
  rhsNonContracting := [3]
  lhsBatch := [0, 1]
  rhsBatch := [0, 1]
  wf := dot_S2x12x2048x2048_S2x12x2048x64_S2x12x2048x64_3_2_2_3_01_01_wf

class Facts : Prop extends Facts₀ where

variable [Facts]
-- ==== Proof.Spec.lean ====
/-
  Scaled dot-product attention for ONE query row, ONE head and ONE output column, written twice over the
  extended reals: in the order a fused kernel computes it (scale the query first, normalise AFTER the second
  product: `(∑ₜ eₜ · vₜ) · (1 / ∑ₜ eₜ)`) and in the order the reference's softmax computes it (scale the scores, normalise
  the weights BEFORE the second product: `∑ₜ (eₜ / ∑ₜ' eₜ') · vₜ`). `D` indexes the head dimension the scores
  contract, `T` the keys. The two whole-array functions below read a [2, 2048, 768] array as twelve heads of
  sixty-four columns: column `c` belongs to head `c / 64`, whose columns are `c / 64 * 64 + d`.
-/
import Idealize.ShloMosaic.PureOps.Ideal
import Idealize.ShloMosaic.Lib.ValueIdx

noncomputable section

open scoped BigOperators

namespace Cert.Attention

open Idealize.ShloMosaic Idealize.ShloMosaic.ValueIdx

variable {D T : Type} [Fintype D] [Fintype T]

/-- A score with the query scaled before the product: `∑_d (q_d · sc) · k_{t,d}`. -/
def scoreK (sc : EReal) (q : D → EReal) (k : T → D → EReal) (t : T) : EReal := ∑ d, q d * sc * k t d

/-- A score scaled after the product: `(∑_d q_d · k_{t,d}) · sc`. -/
def scoreR (sc : EReal) (q : D → EReal) (k : T → D → EReal) (t : T) : EReal := (∑ d, q d * k t d) * sc

/-- The unnormalised weight of key `t`: `exp (S_t − max_t' S_t')`, the maximum folded from `ninf`. -/
def wK (ninf : EReal) (S : T → EReal) (t : T) : EReal := Ideal.exp (S t - Finset.univ.fold max ninf S)

/-- The same with the folded maximum once more joined with `ninf` (the reference's softmax takes the maximum of the initial value and the reduction). -/
def wR (ninf : EReal) (S : T → EReal) (t : T) : EReal := Ideal.exp (S t - max ninf (Finset.univ.fold max ninf S))

/-- The kernel's order: the weighted sum of the values, times the reciprocal of the weights' sum. -/
def rowK (sc ninf one : EReal) (q : D → EReal) (k : T → D → EReal) (v : T → EReal) : EReal :=
  (∑ t, wK ninf (scoreK sc q k) t * v t) * Ideal.div one (∑ t, wK ninf (scoreK sc q k) t)

/-- The reference's order: each weight divided by the weights' sum (folded from `zero`), then the weighted sum. -/
def rowR (sc ninf zero : EReal) (q : D → EReal) (k : T → D → EReal) (v : T → EReal) : EReal :=
  ∑ t, Ideal.div (wR ninf (scoreR sc q k) t) (zero + ∑ t', wR ninf (scoreR sc q k) t') * v t

/-- The [2, 2048, 768] arrays of the statement. -/
abbrev Arr : Shape := ⟨3, ![2, 2048, 768]⟩

/-- Column `d` of the head that column `c` belongs to. -/
def headCol (c : Fin 768) (d : Fin 64) : Fin 768 := ⟨c.val / 64 * 64 + d.val, by have := c.isLt; have := d.isLt; omega⟩

/-- The f32 patterns the two programs spell: 1/8, −∞, 1 and 0. -/
abbrev scaleBits : EReal := Ideal.ofBits .f32 0x3E000000#32
abbrev ninfBits : EReal := Ideal.ofBits .f32 0xFF800000#32
abbrev oneBits : EReal := Ideal.ofBits .f32 0x3F800000#32
abbrev zeroBits : EReal := Ideal.ofBits .f32 0x00000000#32

/-- Attention over the whole arrays in the kernel's order: entry (b, s, c) attends row `s` of batch `b` to every
    row `t` of that batch, within the head of column `c`. -/
def attnK (q k v : Arr.Idx → EReal) : Arr.Idx → EReal := fun i =>
  rowK scaleBits ninfBits oneBits (fun d : Fin 64 => q (ix3 (i 0) (i 1) (headCol (i 2) d)))
    (fun (t : Fin 2048) (d : Fin 64) => k (ix3 (i 0) t (headCol (i 2) d))) (fun t : Fin 2048 => v (ix3 (i 0) t (i 2)))

/-- Attention over the whole arrays in the reference's order. -/
def attnR (q k v : Arr.Idx → EReal) : Arr.Idx → EReal := fun i =>
  rowR scaleBits ninfBits zeroBits (fun d : Fin 64 => q (ix3 (i 0) (i 1) (headCol (i 2) d)))
    (fun (t : Fin 2048) (d : Fin 64) => k (ix3 (i 0) t (headCol (i 2) d))) (fun t : Fin 2048 => v (ix3 (i 0) t (i 2)))

end Cert.Attention

end
-- ==== Proof.Softmax.lean ====
/-
  The two orders of one softmax-attention row agree on finite inputs, over the extended reals.

  With every entry a real number, both scores are the real `s t = (∑ d, q d * k t d) * c`; the maximum folded from
  `⊥` over a nonempty family of reals is a real `m`; each weight is the positive real `exp (s t - m)`; their sum `z`
  is a positive real, so dividing by it is multiplying by the real `1 / z`; and what is left is the identity
  `(∑ t, e t * v t) * (1 * (1 / z)) = ∑ t, e t * (1 / z) * v t` of real numbers. The four constants the programs
  spell denote `1/8`, `-∞`, `1` and `0`.
-/
import proofs.«139607_g74105365725242_cont_9to1_m_705_5_alg».proof.Proof.Spec
import Idealize.ShloMosaic.PureOps.Ideal
import Mathlib.Data.EReal.Operations
import Mathlib.Data.EReal.Inv
import Mathlib.Analysis.SpecialFunctions.Exp
import Mathlib.Algebra.BigOperators.Ring.Finset
import Mathlib.Algebra.Order.BigOperators.Group.Finset
import Mathlib.Data.Finset.Fold

noncomputable section

open scoped BigOperators

namespace Cert.Attention

open Idealize.ShloMosaic Idealize.ShloMosaic.ValueIdx

/-! ### The four constants -/

theorem scaleBits_eq : scaleBits = ((1 / 8 : ℝ) : EReal) := by
  simp [scaleBits, Ideal.ofBits, Ideal.ieee, -EReal.coe_mul]; norm_num

theorem ninfBits_eq : ninfBits = ⊥ := by
  simp [ninfBits, Ideal.ofBits, Ideal.ieee]

theorem oneBits_eq : oneBits = 1 := by
  simp [oneBits, Ideal.ofBits, Ideal.ieee, -EReal.coe_mul]; norm_num

theorem zeroBits_eq : zeroBits = 0 := by
  simp [zeroBits, Ideal.ofBits, Ideal.ieee]

/-! ### Coercion of a finite sum and of a folded maximum -/

/-- The coercion of the reals into the extended reals commutes with a finite sum. -/
theorem coe_finset_sum {ι : Type} (s : Finset ι) (f : ι → ℝ) :
    (∑ t ∈ s, ((f t : ℝ) : EReal)) = ((∑ t ∈ s, f t : ℝ) : EReal) := by
  classical
  induction s using Finset.induction_on with
  | empty => simp
  | insert a s ha ih => rw [Finset.sum_insert ha, Finset.sum_insert ha, ih, EReal.coe_add]

/-- The maximum of a nonempty finite family of reals, folded from `⊥`, is a real number. -/
theorem fold_max_coe {ι : Type} (s : Finset ι) (hs : s.Nonempty) (f : ι → ℝ) :
    ∃ m : ℝ, s.fold max ⊥ (fun t => ((f t : ℝ) : EReal)) = ((m : ℝ) : EReal) := by
  classical
  induction hs using Finset.Nonempty.cons_induction with
  | singleton a => exact ⟨f a, by rw [Finset.fold_singleton]; exact max_eq_left bot_le⟩
  | cons a s ha hs ih =>
    obtain ⟨m, hm⟩ := ih
    exact ⟨max (f a) m, by rw [Finset.fold_cons, hm, EReal.coe_strictMono.monotone.map_max]⟩

/-! ### One row -/

theorem rowK_eq_rowR {D T : Type} [Fintype D] [Fintype T] [Nonempty T] (c : ℝ) (q : D → ℝ) (k : T → D → ℝ) (v : T → ℝ) :
    rowK (c : EReal) ⊥ 1 (fun d => (q d : EReal)) (fun t d => (k t d : EReal)) (fun t => (v t : EReal))
      = rowR (c : EReal) ⊥ 0 (fun d => (q d : EReal)) (fun t d => (k t d : EReal)) (fun t => (v t : EReal)) := by
  -- both scores are the same real number
  have hK : scoreK (c : EReal) (fun d => (q d : EReal)) (fun t d => (k t d : EReal))
      = fun t => (((∑ d, q d * k t d) * c : ℝ) : EReal) := by
    funext t
    unfold scoreK
    simp only [← EReal.coe_mul]
    rw [coe_finset_sum, Finset.sum_mul]
    congr 1
    exact Finset.sum_congr rfl (fun d _ => by ring)
  have hR : scoreR (c : EReal) (fun d => (q d : EReal)) (fun t d => (k t d : EReal))
      = fun t => (((∑ d, q d * k t d) * c : ℝ) : EReal) := by
    funext t
    unfold scoreR
    simp only [← EReal.coe_mul]
    rw [coe_finset_sum, ← EReal.coe_mul]
  -- the folded maximum is a real number
  obtain ⟨m, hm⟩ := fold_max_coe (Finset.univ : Finset T) Finset.univ_nonempty
    (fun t => (∑ d, q d * k t d) * c)
  -- so each weight is a positive real
  have hwK : wK (⊥ : EReal) (fun t => (((∑ d, q d * k t d) * c : ℝ) : EReal))
      = fun t => ((Real.exp ((∑ d, q d * k t d) * c - m) : ℝ) : EReal) := by
    funext t
    unfold wK
    rw [hm, ← EReal.coe_sub, Ideal.exp_coe]
  have hwR : wR (⊥ : EReal) (fun t => (((∑ d, q d * k t d) * c : ℝ) : EReal))
      = fun t => ((Real.exp ((∑ d, q d * k t d) * c - m) : ℝ) : EReal) := by
    funext t
    unfold wR
    rw [hm, max_eq_right bot_le, ← EReal.coe_sub, Ideal.exp_coe]
  -- and their sum is a positive real
  have hz : (0 : ℝ) < ∑ t, Real.exp ((∑ d, q d * k t d) * c - m) :=
    Finset.sum_pos (fun t _ => Real.exp_pos _) Finset.univ_nonempty
  unfold rowK rowR
  rw [hK, hR, hwK, hwR]
  simp only [zero_add]
  rw [coe_finset_sum, Ideal.div_coe hz.ne']
  simp only [Ideal.div_coe hz.ne', ← EReal.coe_mul, ← EReal.coe_one]
  rw [coe_finset_sum, coe_finset_sum, ← EReal.coe_mul]
  congr 1
  rw [Finset.sum_mul]
  exact Finset.sum_congr rfl (fun t _ => by ring)

/-! ### The whole arrays -/

theorem attnK_eq_attnR (q k v : Arr.Idx → EReal) (hq : ∀ i, ∃ r : ℝ, q i = (r : EReal)) (hk : ∀ i, ∃ r : ℝ, k i = (r : EReal)) (hv : ∀ i, ∃ r : ℝ, v i = (r : EReal)) :
    attnK q k v = attnR q k v := by
  choose q' hq' using hq
  choose k' hk' using hk
  choose v' hv' using hv
  funext i
  unfold attnK attnR
  rw [scaleBits_eq, ninfBits_eq, oneBits_eq, zeroBits_eq]
  simp only [hq', hk', hv']
  exact rowK_eq_rowR (1 / 8) _ _ _

end Cert.Attention

end
-- ==== Proof.Finite.lean ====
/-
  From the precondition "the three inputs are finite" to "every entry of each input is a real number".

  The precondition compares, entry by entry, |x| with +∞ (|x| is max x (-x) on the extended reals, and the f32 pattern
  0x7F800000 denotes ⊤), reduces the comparison words by "and" over all three axes from the constant true, and joins the
  three results by "and". A conjunction that is 1 has both sides 1; a reduction by "and" over every axis that is 1 met
  a 1 at every entry; and max a (-a) < ⊤ fails at a = ⊤ (max ⊤ ⊥ = ⊤) and at a = ⊥ (max ⊥ ⊤ = ⊤), so a is a real.
-/
import proofs.«139607_g74105365725242_cont_9to1_m_705_5_alg».proof.Pre_finite_inputs
import proofs.«139607_g74105365725242_cont_9to1_m_705_5_alg».proof.Proof.Gen.Pre_finite_inputs
import proofs.«139607_g74105365725242_cont_9to1_m_705_5_alg».proof.Proof.Spec
import Idealize.ShloMosaic.PureOps.Ideal
import Idealize.ShloMosaic.Lib.ReduceAll
import Idealize.ShloMosaic.Lib.ValueIdx

noncomputable section

namespace Cert.Attention

open Idealize.ShloMosaic Idealize.ShloMosaic.ValueIdx

/-- An extended real whose absolute value `max a (-a)` lies below `⊤` is a real number. -/
theorem exists_real_of_abs_lt_top (a : EReal) (h : max a (-a) < ⊤) : ∃ r : ℝ, a = (r : EReal) := by
  induction a using EReal.rec with
  | bot => simp at h
  | coe r => exact ⟨r, rfl⟩
  | top => simp at h

/-- The f32 pattern of +∞ denotes `⊤`. -/
theorem ofBits_pinf : Ideal.ofBits .f32 0x7F800000#32 = ⊤ := by simp [Ideal.ofBits, Ideal.ieee]

/-- The result shape of a reduction over every axis has one index. -/
instance subsingleton_scalarIdx : Subsingleton Cert.Pre_finite_inputs.S_.Idx :=
  ⟨fun a b => funext fun d => d.elim0⟩

/-- One input: if the "and" over all entries of `|x| < +∞` is 1, every entry of `x` is a real number. -/
theorem real_of_all_abs_lt_inf [Cert.Pre_finite_inputs.Facts] (x : Arr.Idx → EReal)
    (h : Host.reduce IntOp.andi
          (cmpf .olt (Host.absf (F := Ideal) (φ := .f32) x)
            (broadcastInDim Cert.Pre_finite_inputs.S2x2048x768 ![]
              Cert.Pre_finite_inputs.Facts.bcast_S_S2x2048x768
              (constant (F := Ideal) Cert.Pre_finite_inputs.S_ .f32 0x7F800000#32)))
          (constantI Cert.Pre_finite_inputs.S_ 1 1#1)
          Cert.Pre_finite_inputs.Facts.reducesTo_S2x2048x768_S_d0_1_2
          Cert.Pre_finite_inputs.Facts.h_S_ ix0 = 1#1) :
    ∀ i, ∃ r : ℝ, x i = (r : EReal) := by
  intro i
  have e := Host.reduce_andi_all _ _ _ _ _ h i
  have e' : Ideal.cmp .olt (max (x i) (-(x i))) (Ideal.ofBits .f32 0x7F800000#32) = 1#1 := e
  rw [ofBits_pinf] at e'
  refine exists_real_of_abs_lt_top (x i) ?_
  by_contra hn
  simp [Ideal.cmp, hn] at e'

/-- The precondition's one word is 1 only if every entry of each of the three inputs is a real number. -/
theorem finite_of_pre [Cert.Pre_finite_inputs.Facts] (x0 x1 x2 : Cert.Attention.Arr.Idx → EReal)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨real_of_all_abs_lt_inf x0 h0', real_of_all_abs_lt_inf x1 h1, real_of_all_abs_lt_inf x2 h2⟩

end Cert.Attention

end
-- ==== Proof.RefAttention.lean ====
/-
  What the reference program computes, read at an index. The reference reshapes each [2, 2048, 768] operand to twelve
  heads of sixty-four columns, takes the scores q·kᵀ per head, scales them by 1/8, subtracts each row's maximum
  (folded from −∞ and joined with −∞ once more), exponentiates, divides by the row's sum (folded from 0), multiplies
  by the values and reshapes back. Read at entry (b, s, c) this is `Cert.Attention.attnR`: the softmax-order
  attention of row s of batch b over every row t of that batch, within the head of column c.
-/
import proofs.«139607_g74105365725242_cont_9to1_m_705_5_alg».proof.Proof.Spec
import proofs.«139607_g74105365725242_cont_9to1_m_705_5_alg».proof.Proof.Gen.ReferenceIdeal.Read
import Idealize.ShloMosaic.PureOps.Reduce

noncomputable section

open scoped BigOperators

namespace Cert.ReferenceIdeal.RefValue

open Cert.ReferenceIdeal Cert.ReferenceIdeal.Gen Cert.ReferenceIdeal.Read Cert.Attention
open Idealize.ShloMosaic Idealize.ShloMosaic.ValueIdx

/-- The operands' type: a [2, 2048, 768] array of extended reals. -/
abbrev In : Type := (⟨S2x2048x768, .f32⟩ : BufTy).Contents (Elt Ideal)

/-- Column `d` of head `n` in the flat 768-column layout: `n · 64 + d`. -/
def col (n : Fin 12) (d : Fin 64) : Fin 768 := ⟨n.val * 64 + d.val, by have := n.isLt; have := d.isLt; omega⟩

/-! ## The three operands split into heads -/

/-- The head transpose swaps the row and head axes. -/
theorem idx_v1_ix4 (b : Fin 2) (n : Fin 12) (s : Fin 2048) (d : Fin 64) :
    idx_main_v1 (ix4 b n s d) = ix4 b s n d := by
  funext a; match a with | ⟨0, _⟩ => rfl | ⟨1, _⟩ => rfl | ⟨2, _⟩ => rfl | ⟨3, _⟩ => rfl

/-- The reshape to heads reads entry (b, s, n, d) at flat column `n · 64 + d` of row (b, s). -/
theorem idx_v0_ix4 (b : Fin 2) (s : Fin 2048) (n : Fin 12) (d : Fin 64) :
    idx_main_v0 (ix4 b s n d) = ix3 b s (col n d) := by
  have hb := b.isLt; have hs := s.isLt; have hn := n.isLt; have hd := d.isLt
  funext a; apply Fin.ext
  match a with
  | ⟨0, _⟩ => show (((b.val * 2048 + s.val) * 12 + n.val) * 64 + d.val) / 1572864 = b.val; omega
  | ⟨1, _⟩ => show (((b.val * 2048 + s.val) * 12 + n.val) * 64 + d.val) / 768 % 2048 = s.val; omega
  | ⟨2, _⟩ => show (((b.val * 2048 + s.val) * 12 + n.val) * 64 + d.val) % 768 = n.val * 64 + d.val; omega

theorem idx_v3_ix4 (b : Fin 2) (n : Fin 12) (s : Fin 2048) (d : Fin 64) :
    idx_main_v3 (ix4 b n s d) = ix4 b s n d := idx_v1_ix4 b n s d
theorem idx_v5_ix4 (b : Fin 2) (n : Fin 12) (s : Fin 2048) (d : Fin 64) :
    idx_main_v5 (ix4 b n s d) = ix4 b s n d := idx_v1_ix4 b n s d
theorem idx_v2_ix4 (b : Fin 2) (s : Fin 2048) (n : Fin 12) (d : Fin 64) :
    idx_main_v2 (ix4 b s n d) = ix3 b s (col n d) := idx_v0_ix4 b s n d
theorem idx_v4_ix4 (b : Fin 2) (s : Fin 2048) (n : Fin 12) (d : Fin 64) :
    idx_main_v4 (ix4 b s n d) = ix3 b s (col n d) := idx_v0_ix4 b s n d

/-- The query operand by heads: entry (b, n, s, d) is the input at row (b, s), column `n · 64 + d`. -/
theorem val_v1_ix4 (x0 : In) (b : Fin 2) (n : Fin 12) (s : Fin 2048) (d : Fin 64) :
    val_main_v1 (F := Ideal) x0 (ix4 b n s d) = x0 (ix3 b s (col n d)) := by
  rw [val_main_v1_apply, idx_v1_ix4, val_main_v0_apply, idx_v0_ix4]

/-- The key operand by heads. -/
theorem val_v3_ix4 (x1 : In) (b : Fin 2) (n : Fin 12) (s : Fin 2048) (d : Fin 64) :
    val_main_v3 (F := Ideal) x1 (ix4 b n s d) = x1 (ix3 b s (col n d)) := by
  rw [val_main_v3_apply, idx_v3_ix4, val_main_v2_apply, idx_v2_ix4]

/-- The value operand by heads. -/
theorem val_v5_ix4 (x2 : In) (b : Fin 2) (n : Fin 12) (s : Fin 2048) (d : Fin 64) :
    val_main_v5 (F := Ideal) x2 (ix4 b n s d) = x2 (ix3 b s (col n d)) := by
  rw [val_main_v5_apply, idx_v5_ix4, val_main_v4_apply, idx_v4_ix4]

/-! ## The scores -/

theorem lidx_v6_ix4 (b : Fin 2) (n : Fin 12) (s t : Fin 2048) (k : Fin 64) :
    lidx_main_v6 (ix4 b n s t) k = ix4 b n s k := by
  funext a; match a with | ⟨0, _⟩ => rfl | ⟨1, _⟩ => rfl | ⟨2, _⟩ => rfl | ⟨3, _⟩ => rfl

theorem ridx_v6_ix4 (b : Fin 2) (n : Fin 12) (s t : Fin 2048) (k : Fin 64) :
    ridx_main_v6 (ix4 b n s t) k = ix4 b n t k := by
  funext a; match a with | ⟨0, _⟩ => rfl | ⟨1, _⟩ => rfl | ⟨2, _⟩ => rfl | ⟨3, _⟩ => rfl

/-- Row `s` of batch `b` within head `n`, as the query of one attention row. -/
abbrev qRow (x0 : In) (b : Fin 2) (n : Fin 12) (s : Fin 2048) : Fin 64 → EReal := fun d => x0 (ix3 b s (col n d))
/-- The keys of batch `b` within head `n`. -/
abbrev kRows (x1 : In) (b : Fin 2) (n : Fin 12) : Fin 2048 → Fin 64 → EReal := fun t d => x1 (ix3 b t (col n d))

/-- The scaled score of query row `s` against key row `t` in head `n`: the product summed over the head's columns, times 1/8. -/
theorem val_v8_ix4 (x0 x1 : In) (b : Fin 2) (n : Fin 12) (s t : Fin 2048) :
    val_main_v8 (F := Ideal) x0 x1 (ix4 b n s t) = scoreR scaleBits (qRow x0 b n s) (kRows x1 b n) t := by
  rw [val_main_v8_apply, val_main_v7_apply, val_main_cst_apply, val_main_v6_apply, Ideal.mulf_def, Ideal.ofBits_def]
  unfold scoreR
  refine congrArg (· * _) (Finset.sum_congr rfl fun k _ => ?_)
  rw [lidx_v6_ix4, ridx_v6_ix4, val_v1_ix4, val_v3_ix4]

/-! ## The row maximum -/

/-- The shape fact of the reduction over the last axis, in the form that names the inserted index. -/
theorem red3 : S2x12x2048x2048.Reduces [3] S2x12x2048 := by decide

/-- The index over (b, n, s) with `t` inserted on the reduced axis. -/
theorem lift_ix3 (b : Fin 2) (n : Fin 12) (s t : Fin 2048) :
    red3.lift (ix3 b n s) t = ix4 b n s t := by
  funext a; apply Fin.ext
  match a with | ⟨0, _⟩ => rfl | ⟨1, _⟩ => rfl | ⟨2, _⟩ => rfl | ⟨3, _⟩ => rfl

/-- The max-reduce at (b, n, s): the fold of `max` from −∞ over the row's 2048 scores. -/
theorem val_v9_ix3 (x0 x1 : In) (b : Fin 2) (n : Fin 12) (s : Fin 2048) :
    val_main_v9 (F := Ideal) x0 x1 (ix3 b n s)
      = Finset.univ.fold max ninfBits (fun t : Fin 2048 => val_main_v8 (F := Ideal) x0 x1 (ix4 b n s t)) := by
  unfold val_main_v9
  rw [Host.reduce_eq_fold_single _ _ _ reducesTo_S2x12x2048x2048_S2x12x2048_d3 red3 h_S_]
  have e : (val_main_v8 (F := Ideal) x0 x1 ∘ red3.lift (ix3 b n s))
      = fun t : Fin 2048 => val_main_v8 (F := Ideal) x0 x1 (ix4 b n s t) :=
    funext fun t => congrArg (val_main_v8 (F := Ideal) x0 x1) (lift_ix3 b n s t)
  rw [e]
  rfl

/-! ## The weights -/

theorem idx_v13_ix4 (b : Fin 2) (n : Fin 12) (s t : Fin 2048) :
    idx_main_v13 (ix4 b n s t) = ix4 b n s (0 : Fin 1) := by
  funext a; match a with | ⟨0, _⟩ => rfl | ⟨1, _⟩ => rfl | ⟨2, _⟩ => rfl | ⟨3, _⟩ => rfl

theorem idx_v12_ix4 (b : Fin 2) (n : Fin 12) (s : Fin 2048) (z : Fin 1) :
    idx_main_v12 (ix4 b n s z) = ix3 b n s := by
  funext a; match a with | ⟨0, _⟩ => rfl | ⟨1, _⟩ => rfl | ⟨2, _⟩ => rfl

theorem idx_v18_ix4 (b : Fin 2) (n : Fin 12) (s t : Fin 2048) :
    idx_main_v18 (ix4 b n s t) = ix4 b n s (0 : Fin 1) := idx_v13_ix4 b n s t

theorem idx_v17_ix4 (b : Fin 2) (n : Fin 12) (s : Fin 2048) (z : Fin 1) :
    idx_main_v17 (ix4 b n s z) = ix3 b n s := idx_v12_ix4 b n s z

theorem idx_v16_ix3 (b : Fin 2) (n : Fin 12) (s k : Fin 2048) :
    idx_main_v16 (ix3 b n s) k = ix4 b n s k := by
  funext a; match a with | ⟨0, _⟩ => rfl | ⟨1, _⟩ => rfl | ⟨2, _⟩ => rfl | ⟨3, _⟩ => rfl

/-- The row's maximum, joined with −∞ once more, at (b, n, s). -/
theorem val_v11_ix3 (x0 x1 : In) (b : Fin 2) (n : Fin 12) (s : Fin 2048) :
    val_main_v11 (F := Ideal) x0 x1 (ix3 b n s)
      = max ninfBits (Finset.univ.fold max ninfBits (scoreR scaleBits (qRow x0 b n s) (kRows x1 b n))) := by
  rw [val_main_v11_apply, val_main_v10_apply, val_main_cst_1_apply, val_v9_ix3, Ideal.maximumf_def, Ideal.ofBits_def]
  refine congrArg (fun S : Fin 2048 → EReal => max ninfBits (Finset.univ.fold max ninfBits S)) (funext fun t => ?_)
  exact val_v8_ix4 x0 x1 b n s t

/-- The unnormalised weight of key row `t` for query row `s` in head `n`. -/
theorem val_v15_ix4 (x0 x1 : In) (b : Fin 2) (n : Fin 12) (s t : Fin 2048) :
    val_main_v15 (F := Ideal) x0 x1 (ix4 b n s t) = wR ninfBits (scoreR scaleBits (qRow x0 b n s) (kRows x1 b n)) t := by
  rw [val_main_v15_apply, val_main_v14_apply, val_main_v13_apply, idx_v13_ix4, val_main_v12_apply, idx_v12_ix4,
    val_v11_ix3, val_v8_ix4, Ideal.hostUnary_exp_def, Ideal.subf_def]
  rfl

/-- The weights' sum, folded from 0, at (b, n, s). -/
theorem val_v16_ix3 (x0 x1 : In) (b : Fin 2) (n : Fin 12) (s : Fin 2048) :
    val_main_v16 (F := Ideal) x0 x1 (ix3 b n s)
      = zeroBits + ∑ t : Fin 2048, wR ninfBits (scoreR scaleBits (qRow x0 b n s) (kRows x1 b n)) t := by
  rw [val_main_v16_apply, val_main_cst_2_apply, Ideal.ofBits_def]
  refine congrArg (zeroBits + ·) (Finset.sum_congr rfl fun k _ => ?_)
  rw [idx_v16_ix3, val_v15_ix4]

/-- The normalised weight of key row `t`. -/
theorem val_v19_ix4 (x0 x1 : In) (b : Fin 2) (n : Fin 12) (s t : Fin 2048) :
    val_main_v19 (F := Ideal) x0 x1 (ix4 b n s t)
      = Ideal.div (wR ninfBits (scoreR scaleBits (qRow x0 b n s) (kRows x1 b n)) t)
          (zeroBits + ∑ t' : Fin 2048, wR ninfBits (scoreR scaleBits (qRow x0 b n s) (kRows x1 b n)) t') := by
  rw [val_main_v19_apply, val_main_v18_apply, idx_v18_ix4, val_main_v17_apply, idx_v17_ix4, val_v16_ix3, val_v15_ix4,
    Ideal.hostDivf_def]

/-! ## The weighted sum of the values, and the way back to [2, 2048, 768] -/

theorem lidx_v20_ix4 (b : Fin 2) (n : Fin 12) (s : Fin 2048) (d : Fin 64) (k : Fin 2048) :
    lidx_main_v20 (ix4 b n s d) k = ix4 b n s k := by
  funext a; match a with | ⟨0, _⟩ => rfl | ⟨1, _⟩ => rfl | ⟨2, _⟩ => rfl | ⟨3, _⟩ => rfl

theorem ridx_v20_ix4 (b : Fin 2) (n : Fin 12) (s : Fin 2048) (d : Fin 64) (k : Fin 2048) :
    ridx_main_v20 (ix4 b n s d) k = ix4 b n k d := by
  funext a; match a with | ⟨0, _⟩ => rfl | ⟨1, _⟩ => rfl | ⟨2, _⟩ => rfl | ⟨3, _⟩ => rfl

/-- One output entry by heads: the softmax-order attention row of (b, s) in head `n`, against value column `d` of that head. -/
theorem val_v20_ix4 (x0 x1 x2 : In) (b : Fin 2) (n : Fin 12) (s : Fin 2048) (d : Fin 64) :
    val_main_v20 (F := Ideal) x0 x1 x2 (ix4 b n s d)
      = rowR scaleBits ninfBits zeroBits (qRow x0 b n s) (kRows x1 b n) (fun t : Fin 2048 => x2 (ix3 b t (col n d))) := by
  rw [val_main_v20_apply]
  unfold rowR
  refine Finset.sum_congr rfl fun k _ => ?_
  rw [lidx_v20_ix4, ridx_v20_ix4, val_v19_ix4, val_v5_ix4]

theorem idx_v21_ix4 (b : Fin 2) (s : Fin 2048) (n : Fin 12) (d : Fin 64) :
    idx_main_v21 (ix4 b s n d) = ix4 b n s d := by
  funext a; match a with | ⟨0, _⟩ => rfl | ⟨1, _⟩ => rfl | ⟨2, _⟩ => rfl | ⟨3, _⟩ => rfl

/-- The head of flat column `c`. -/
def headOf (c : Fin 768) : Fin 12 := ⟨c.val / 64, by have := c.isLt; omega⟩
/-- The position of flat column `c` within its head. -/
def posOf (c : Fin 768) : Fin 64 := ⟨c.val % 64, Nat.mod_lt _ (by decide)⟩

/-- The reshape back reads entry (b, s, c) at head `c / 64`, position `c % 64`. -/
theorem idx_v22_ix3 (b : Fin 2) (s : Fin 2048) (c : Fin 768) :
    idx_main_v22 (ix3 b s c) = ix4 b s (headOf c) (posOf c) := by
  have hb := b.isLt; have hs := s.isLt; have hc := c.isLt
  funext a; apply Fin.ext
  match a with
  | ⟨0, _⟩ => show ((b.val * 2048 + s.val) * 768 + c.val) / 1572864 = b.val; omega
  | ⟨1, _⟩ => show ((b.val * 2048 + s.val) * 768 + c.val) / 768 % 2048 = s.val; omega
  | ⟨2, _⟩ => show ((b.val * 2048 + s.val) * 768 + c.val) / 64 % 12 = c.val / 64; omega
  | ⟨3, _⟩ => show ((b.val * 2048 + s.val) * 768 + c.val) % 64 = c.val % 64; omega

/-- A column of the head of `c` is `headCol c`. -/
theorem col_headOf (c : Fin 768) (d : Fin 64) : col (headOf c) d = headCol c d := rfl

/-- Column `c` is position `c % 64` of head `c / 64`. -/
theorem col_headOf_posOf (c : Fin 768) : col (headOf c) (posOf c) = c :=
  Fin.ext (by show c.val / 64 * 64 + c.val % 64 = c.val; omega)

/-- The reference at entry (b, s, c). -/
theorem val_v22_ix3 (x0 x1 x2 : In) (b : Fin 2) (s : Fin 2048) (c : Fin 768) :
    val_main_v22 (F := Ideal) x0 x1 x2 (ix3 b s c)
      = rowR scaleBits ninfBits zeroBits (fun d : Fin 64 => x0 (ix3 b s (headCol c d)))
          (fun (t : Fin 2048) (d : Fin 64) => x1 (ix3 b t (headCol c d))) (fun t : Fin 2048 => x2 (ix3 b t c)) := by
  rw [val_main_v22_apply, idx_v22_ix3, val_main_v21_apply, idx_v21_ix4, val_v20_ix4, col_headOf_posOf]
  rfl

/-- The reference program computes softmax-order attention over the whole arrays. -/
theorem ref_eq (x0 x1 x2 : Cert.Attention.Arr.Idx → EReal) :
    Cert.ReferenceIdeal.Read.val_main_v22 (F := Ideal) x0 x1 x2 = Cert.Attention.attnR x0 x1 x2 := by
  funext i
  obtain ⟨b, s, c, rfl⟩ : ∃ b s c, i = ix3 b s c := ⟨i 0, i 1, i 2, eq_ix3 i⟩
  exact val_v22_ix3 x0 x1 x2 b s c

end Cert.ReferenceIdeal.RefValue

end
-- ==== Proof.Head.lean ====
/-
  One head of the fused attention kernel, as three stages of vector operations on a [256, 768] block of queries and
  the [2048, 768] keys and values of its batch, at a column offset `o` (head `h` sits at `o = 64 h`):
  the scores `S[r, t] = ∑_d (q[r, o + d] · 1/8) · k[t, o + d]`; the weights `W[r, t] = exp (S[r, t] − max_t' S[r, t'])`;
  and the normalised product `(∑_t W[r, t] · v[t, o + d]) · (1 / ∑_t W[r, t])`. Each stage is read at an index over the
  extended reals, where a change of float format is the identity, a matrix product into a zero accumulator is the
  plain sum over the contracted axis, and a lane reduction is the sum, or the fold of `max`, over the reduced axis.
-/
import proofs.«139607_g74105365725242_cont_9to1_m_705_5_alg».proof.KernelIdeal
import proofs.«139607_g74105365725242_cont_9to1_m_705_5_alg».proof.Proof.Gen.KernelIdeal
import proofs.«139607_g74105365725242_cont_9to1_m_705_5_alg».proof.Proof.Spec
import Idealize.ShloMosaic.Lib.ValueLayout
import Idealize.ShloMosaic.Lib.Pipeline.Value
import Idealize.ShloMosaic.PureOps.Ideal.Laws

noncomputable section

open scoped BigOperators

namespace Cert.KernelIdeal.Head

open Cert.KernelIdeal Cert.Attention Idealize.ShloMosaic Idealize.ShloMosaic.ValueIdx

variable {F : FTy → Type} [FloatOps F]
open Facts₀

/-! ## The three stages, at any float instance -/

/-- The scores of the 256 query rows against the 2048 keys, within the 64 columns from `o`. -/
def scores (o : Nat) (hq : S256x768.Slices ![0, o] S256x64) (hk : S2048x768.Slices ![0, o] S2048x64)
    (v1 : FVec F S256x768 .f32) (v3 : FVec F S2048x768 .f32) : FVec F S256x2048 .f32 :=
  matmul dot_S256x64_S2048x64_S256x2048_1_1_0_0_n_n none
    (truncf .bf16 (mulf (extractStridedSlice S256x64 ![0, o] v1 hq) (broadcast S256x64 (Scalar.ofBits .f32 0x3E000000#32))) bitsLt_bf16_f32)
    (truncf .bf16 (extractStridedSlice S2048x64 ![0, o] v3 hk) bitsLt_bf16_f32)
    (constant S256x2048 .f32 0x00000000#32)

/-- The unnormalised softmax weights of a score matrix: each row shifted by its maximum, exponentiated. -/
def weights (S : FVec F S256x2048 .f32) : FVec F S256x2048 .f32 :=
  exp (subf S (broadcastTo S256x2048 (shapeCast S256x1
    (multiReduction .maximumf [1] S256 S 0xFF800000#32 reduces_S256x2048_S256 (.inl rfl) rfl) shapeCasts_S256_S256x1) broadcasts_S256x1_S256x2048))

/-- The weights times a [2048, 64] matrix of values, each row then scaled by the reciprocal of its weights' sum. -/
def normalised (W : FVec F S256x2048 .f32) (vh : FVec F S2048x64 .bf16) : FVec F S1x256x64 .f32 :=
  shapeCast S1x256x64 (mulf
    (matmul dot_S256x2048_S2048x64_S256x64_1_0_0_1_n_n none (truncf .bf16 W bitsLt_bf16_f32) vh (constant S256x64 .f32 0x00000000#32))
    (broadcastTo S256x64 (divf (broadcast S256x1 (Scalar.ofBits .f32 0x3F800000#32))
      (shapeCast S256x1 (multiReduction .add [1] S256 W 0x00000000#32 reduces_S256x2048_S256 (.inl rfl) rfl) shapeCasts_S256_S256x1)) broadcasts_S256x1_S256x64))
    shapeCasts_S256x64_S1x256x64

/-- The head at column offset `o`: what the kernel stores into columns `o … o + 63` of its output block. -/
def head (o : Nat) (hq : S256x768.Slices ![0, o] S256x64) (hk : S2048x768.Slices ![0, o] S2048x64)
    (v1 : FVec F S256x768 .f32) (v3 v5 : FVec F S2048x768 .f32) : FVec F S1x256x64 .f32 :=
  normalised (weights (scores o hq hk v1 v3)) (truncf .bf16 (extractStridedSlice S2048x64 ![0, o] v5 hk) bitsLt_bf16_f32)

/-! ## Two column layouts read at an index -/

section Layout
variable {α : Type}

/-- A vector of length `a` cast to an `[a, 1]` column reads, at `(i, 0)`, the vector at `i`. -/
theorem shapeCast_a_a1_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast along its rows to `[a, b]` reads, at `(p, c)`, the column at `(p, 0)`. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The stages at an index, over the extended reals -/

section AtIdeal

/-- Column `o + d` of a 768-column array, for a head at offset `o`. -/
def colAt (o : Nat) (ho : o + 64 ≤ 768) (d : Fin 64) : Fin 768 := ⟨o + d.val, by have := d.isLt; omega⟩

theorem lhs_scores_0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem lhs_scores_1 (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
theorem rhs_scores_0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem rhs_scores_1 (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- The score of query row `r` against key `t`: the sum over the head's 64 columns of the scaled query entry times
    the key entry. -/
theorem scores_apply (o : Nat) (ho : o + 64 ≤ 768) (hq : S256x768.Slices ![0, o] S256x64) (hk : S2048x768.Slices ![0, o] S2048x64)
    (v1 : FVec Ideal S256x768 .f32) (v3 : FVec Ideal S2048x768 .f32) (r : Fin 256) (t : Fin 2048) :
    scores (F := Ideal) o hq hk v1 v3 (ix2 r t)
      = scoreK scaleBits (fun d : Fin 64 => v1 (ix2 r (colAt o ho d))) (fun (t' : Fin 2048) (d : Fin 64) => v3 (ix2 t' (colAt o ho d))) t := by
  unfold scores scoreK
  refine (Ideal.matmul_constant_zero_apply dot_S256x64_S2048x64_S256x2048_1_1_0_0_n_n none _ _ (ix2 r t)).trans ?_
  rw [← Equiv.sum_comp (contrEquiv1 dot_S256x64_S2048x64_S256x2048_1_1_0_0_n_n 64 rfl rfl).symm]
  refine Finset.sum_congr rfl fun k _ => ?_
  have hk' := contrEquiv1_symm_val dot_S256x64_S2048x64_S256x2048_1_1_0_0_n_n 64 rfl rfl k
  have el : dot_S256x64_S2048x64_S256x2048_1_1_0_0_n_n.lhsIdx (ix2 r t) ((contrEquiv1 dot_S256x64_S2048x64_S256x2048_1_1_0_0_n_n 64 rfl rfl).symm k) = ix2 r k := funext fun a => Fin.ext (by
    match a with
    | ⟨0, _⟩ => exact lhs_scores_0 _ _
    | ⟨1, _⟩ => exact (lhs_scores_1 _ _).trans hk')
  have er : dot_S256x64_S2048x64_S256x2048_1_1_0_0_n_n.rhsIdx (ix2 r t) ((contrEquiv1 dot_S256x64_S2048x64_S256x2048_1_1_0_0_n_n 64 rfl rfl).symm k) = ix2 t k := funext fun a => Fin.ext (by
    match a with
    | ⟨0, _⟩ => exact rhs_scores_0 _ _
    | ⟨1, _⟩ => exact (rhs_scores_1 _ _).trans hk')
  rw [el, er]
  show extractStridedSlice S256x64 ![0, o] v1 hq (ix2 r k) * Ideal.ofBits .f32 0x3E000000#32 * extractStridedSlice S2048x64 ![0, o] v3 hk (ix2 t k) = _
  rw [slice2_axis1_apply o v1 hq r k (colAt o ho k) rfl, slice2_axis1_apply o v3 hk t k (colAt o ho k) rfl]

/-- The reduced row index with a key coordinate inserted is the matrix index. -/
theorem lift_row (r : Fin 256) (t : Fin 2048) : reduces_S256x2048_S256.lift (ix1 r) t = ix2 r t :=
  funext fun a => Fin.ext (by match a with | ⟨0, _⟩ => rfl | ⟨1, _⟩ => rfl)

/-- A weight: the exponential of the score less the row's maximum, the maximum folded from the pattern of −∞. -/
theorem weights_apply (S : FVec Ideal S256x2048 .f32) (r : Fin 256) (t : Fin 2048) :
    weights (F := Ideal) S (ix2 r t) = wK ninfBits (fun t' : Fin 2048 => S (ix2 r t')) t := by
  unfold weights wK
  show Ideal.exp (S (ix2 r t) - broadcastTo S256x2048 _ broadcasts_S256x1_S256x2048 (ix2 r t)) = _
  rw [broadcastTo_a1_ab_apply, shapeCast_a_a1_apply]
  have e : (S ∘ reduces_S256x2048_S256.lift (ix1 r)) = fun t' : Fin 2048 => S (ix2 r t') := funext fun t' => congrArg S (lift_row r t')
  have hm := Ideal.multiReduction_maximumf_single S 0xFF800000#32 reduces_S256x2048_S256 (.inl rfl) rfl (ix1 r)
  rw [e] at hm
  exact congrArg (fun m => Ideal.exp (S (ix2 r t) - m)) hm

theorem lhs_prod_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhs_prod_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhs_prod_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem rhs_prod_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The weights' product with the values at `(r, d)`, times the reciprocal of row `r`'s sum of weights. -/
theorem normalised_apply (W : FVec Ideal S256x2048 .f32) (vh : FVec Ideal S2048x64 .bf16) (u : Fin 1) (r : Fin 256) (d : Fin 64) :
    normalised (F := Ideal) W vh (ix3 u r d)
      = (∑ t : Fin 2048, W (ix2 r t) * vh (ix2 t d)) * Ideal.div oneBits (∑ t : Fin 2048, W (ix2 r t)) := by
  unfold normalised
  rw [shapeCast_ab_1ab_apply]
  show FloatOps.matmul dot_S256x2048_S2048x64_S256x64_1_0_0_1_n_n none _ vh (constant S256x64 .f32 0x00000000#32) (ix2 r d)
      * broadcastTo S256x64 _ broadcasts_S256x1_S256x64 (ix2 r d) = _
  rw [broadcastTo_a1_ab_apply]
  show _ * Ideal.div oneBits (shapeCast S256x1 _ shapeCasts_S256_S256x1 (ix2 r (0 : Fin 1))) = _
  rw [shapeCast_a_a1_apply]
  have hs := Ideal.multiReduction_add_single W 0x00000000#32 reduces_S256x2048_S256 (.inl rfl) rfl (ix1 r)
  have e : (fun k : Fin 2048 => W (reduces_S256x2048_S256.lift (ix1 r) k)) = fun t : Fin 2048 => W (ix2 r t) := funext fun t => congrArg W (lift_row r t)
  have hm : FloatOps.matmul dot_S256x2048_S2048x64_S256x64_1_0_0_1_n_n none (truncf .bf16 W bitsLt_bf16_f32) vh (constant S256x64 .f32 0x00000000#32) (ix2 r d)
      = ∑ t : Fin 2048, W (ix2 r t) * vh (ix2 t d) := by
    refine (Ideal.matmul_constant_zero_apply dot_S256x2048_S2048x64_S256x64_1_0_0_1_n_n none _ _ (ix2 r d)).trans ?_
    rw [← Equiv.sum_comp (contrEquiv1 dot_S256x2048_S2048x64_S256x64_1_0_0_1_n_n 2048 rfl rfl).symm]
    refine Finset.sum_congr rfl fun k _ => ?_
    have hk' := contrEquiv1_symm_val dot_S256x2048_S2048x64_S256x64_1_0_0_1_n_n 2048 rfl rfl k
    have el : dot_S256x2048_S2048x64_S256x64_1_0_0_1_n_n.lhsIdx (ix2 r d) ((contrEquiv1 dot_S256x2048_S2048x64_S256x64_1_0_0_1_n_n 2048 rfl rfl).symm k) = ix2 r k := funext fun a => Fin.ext (by
      match a with
      | ⟨0, _⟩ => exact lhs_prod_0 _ _
      | ⟨1, _⟩ => exact (lhs_prod_1 _ _).trans hk')
    have er : dot_S256x2048_S2048x64_S256x64_1_0_0_1_n_n.rhsIdx (ix2 r d) ((contrEquiv1 dot_S256x2048_S2048x64_S256x64_1_0_0_1_n_n 2048 rfl rfl).symm k) = ix2 k d := funext fun a => Fin.ext (by
      match a with
      | ⟨0, _⟩ => exact (rhs_prod_0 _ _).trans hk'
      | ⟨1, _⟩ => exact rhs_prod_1 _ _)
    rw [el, er]
    rfl
  rw [hm]
  exact congrArg (fun z => (∑ t : Fin 2048, W (ix2 r t) * vh (ix2 t d)) * Ideal.div oneBits z) (hs.trans (congrArg (fun f : Fin 2048 → EReal => ∑ t, f t) e))

/-- ONE HEAD at an index: entry `(r, d)` of the head at offset `o` is the attention row of query row `r` over the head's
    columns `o … o + 63` of the queries and keys, against column `o + d` of the values. -/
theorem head_apply (o : Nat) (ho : o + 64 ≤ 768) (hq : S256x768.Slices ![0, o] S256x64) (hk : S2048x768.Slices ![0, o] S2048x64)
    (v1 : FVec Ideal S256x768 .f32) (v3 v5 : FVec Ideal S2048x768 .f32) (u : Fin 1) (r : Fin 256) (d : Fin 64) :
    head (F := Ideal) o hq hk v1 v3 v5 (ix3 u r d)
      = rowK scaleBits ninfBits oneBits (fun d' : Fin 64 => v1 (ix2 r (colAt o ho d')))
          (fun (t : Fin 2048) (d' : Fin 64) => v3 (ix2 t (colAt o ho d'))) (fun t : Fin 2048 => v5 (ix2 t (colAt o ho d))) := by
  unfold head rowK
  rw [normalised_apply]
  have ew : ∀ t : Fin 2048, weights (F := Ideal) (scores o hq hk v1 v3) (ix2 r t)
      = wK ninfBits (scoreK scaleBits (fun d' : Fin 64 => v1 (ix2 r (colAt o ho d'))) (fun (t : Fin 2048) (d' : Fin 64) => v3 (ix2 t (colAt o ho d')))) t := fun t => by
    rw [weights_apply]
    exact congrArg (fun S => wK ninfBits S t) (funext fun t' => scores_apply o ho hq hk v1 v3 r t')
  have ev : ∀ t : Fin 2048, (truncf .bf16 (extractStridedSlice S2048x64 ![0, o] v5 hk) bitsLt_bf16_f32 : FVec Ideal S2048x64 .bf16) (ix2 t d) = v5 (ix2 t (colAt o ho d)) := fun t =>
    slice2_axis1_apply o v5 hk t d (colAt o ho d) rfl
  simp only [ew, ev]

end AtIdeal

end Cert.KernelIdeal.Head

end
-- ==== Proof.Block.lean ====
/-
  The kernel's output block as ONE function of its three input blocks. The body writes its [1, 256, 768] output
  block in twelve stores of [1, 256, 64], one head each: the store at column offset `64 h` holds head `h`, computed
  from columns `64 h … 64 h + 63` of the query block and of the key and value blocks. So entry (0, r, c) of the block
  is the attention row of query row `r` within the head `c / 64` of column `c`, whichever store wrote it.
-/
import proofs.«139607_g74105365725242_cont_9to1_m_705_5_alg».proof.Proof.Gen.KernelIdeal.Frame
import proofs.«139607_g74105365725242_cont_9to1_m_705_5_alg».proof.Proof.Head

set_option maxRecDepth 16384

noncomputable section

open scoped BigOperators

namespace Cert.KernelIdeal.Block

open Cert.KernelIdeal Cert.KernelIdeal.Gen Cert.KernelIdeal.Head Cert.Attention Idealize.ShloMosaic Idealize.ShloMosaic.ValueIdx

/-! ## Each store's value is a head -/

section AnyInstance
variable {F : FTy → Type} [FloatOps F]

theorem pay_at_0 (a : Vec F S1x256x768 .f32) (b c : Vec F S1x2048x768 .f32) :
    k0_pay5 a b c
      = head 0 Facts₀.slices_S256x768_o0_0_S256x64 Facts₀.slices_S2048x768_o0_0_S2048x64 (k0_pay2 a) (k0_pay3 b) (k0_pay4 c) := rfl
theorem pay_at_64 (a : Vec F S1x256x768 .f32) (b c : Vec F S1x2048x768 .f32) :
    k0_pay9 (k0_pay6 a) (k0_pay7 b) (k0_pay8 c)
      = head 64 Facts₀.slices_S256x768_o0_64_S256x64 Facts₀.slices_S2048x768_o0_64_S2048x64 (k0_pay2 a) (k0_pay3 b) (k0_pay4 c) := rfl
theorem pay_at_128 (a : Vec F S1x256x768 .f32) (b c : Vec F S1x2048x768 .f32) :
    k0_pay11 (k0_pay10 (k0_pay2 a) (k0_pay3 b) (k0_pay4 c))
      = head 128 Facts₀.slices_S256x768_o0_128_S256x64 Facts₀.slices_S2048x768_o0_128_S2048x64 (k0_pay2 a) (k0_pay3 b) (k0_pay4 c) := rfl
theorem pay_at_192 (a : Vec F S1x256x768 .f32) (b c : Vec F S1x2048x768 .f32) :
    k0_pay12 (k0_pay2 a) (k0_pay3 b) (k0_pay4 c)
      = head 192 Facts₀.slices_S256x768_o0_192_S256x64 Facts₀.slices_S2048x768_o0_192_S2048x64 (k0_pay2 a) (k0_pay3 b) (k0_pay4 c) := rfl
theorem pay_at_256 (a : Vec F S1x256x768 .f32) (b c : Vec F S1x2048x768 .f32) :
    k0_pay16 (k0_pay13 (k0_pay4 c)) (k0_pay14 (k0_pay2 a) (k0_pay3 b)) (k0_pay15 (k0_pay2 a) (k0_pay3 b))
      = head 256 Facts₀.slices_S256x768_o0_256_S256x64 Facts₀.slices_S2048x768_o0_256_S2048x64 (k0_pay2 a) (k0_pay3 b) (k0_pay4 c) := rfl
theorem pay_at_320 (a : Vec F S1x256x768 .f32) (b c : Vec F S1x2048x768 .f32) :
    k0_pay17 (k0_pay2 a) (k0_pay3 b) (k0_pay4 c)
      = head 320 Facts₀.slices_S256x768_o0_320_S256x64 Facts₀.slices_S2048x768_o0_320_S2048x64 (k0_pay2 a) (k0_pay3 b) (k0_pay4 c) := rfl
theorem pay_at_384 (a : Vec F S1x256x768 .f32) (b c : Vec F S1x2048x768 .f32) :
    k0_pay21 (k0_pay18 (k0_pay4 c)) (k0_pay19 (k0_pay2 a) (k0_pay3 b)) (k0_pay20 (k0_pay2 a) (k0_pay3 b))
      = head 384 Facts₀.slices_S256x768_o0_384_S256x64 Facts₀.slices_S2048x768_o0_384_S2048x64 (k0_pay2 a) (k0_pay3 b) (k0_pay4 c) := rfl
theorem pay_at_448 (a : Vec F S1x256x768 .f32) (b c : Vec F S1x2048x768 .f32) :
    k0_pay22 (k0_pay2 a) (k0_pay3 b) (k0_pay4 c)
      = head 448 Facts₀.slices_S256x768_o0_448_S256x64 Facts₀.slices_S2048x768_o0_448_S2048x64 (k0_pay2 a) (k0_pay3 b) (k0_pay4 c) := rfl
theorem pay_at_512 (a : Vec F S1x256x768 .f32) (b c : Vec F S1x2048x768 .f32) :
    k0_pay25 (k0_pay3 b) (k0_pay4 c) (k0_pay23 (k0_pay2 a)) (k0_pay24 (F := F))
      = head 512 Facts₀.slices_S256x768_o0_512_S256x64 Facts₀.slices_S2048x768_o0_512_S2048x64 (k0_pay2 a) (k0_pay3 b) (k0_pay4 c) := rfl
theorem pay_at_576 (a : Vec F S1x256x768 .f32) (b c : Vec F S1x2048x768 .f32) :
    k0_pay27 (k0_pay26 (k0_pay2 a) (k0_pay3 b) (k0_pay4 c))
      = head 576 Facts₀.slices_S256x768_o0_576_S256x64 Facts₀.slices_S2048x768_o0_576_S2048x64 (k0_pay2 a) (k0_pay3 b) (k0_pay4 c) := rfl
theorem pay_at_640 (a : Vec F S1x256x768 .f32) (b c : Vec F S1x2048x768 .f32) :
    k0_pay28 (k0_pay2 a) (k0_pay3 b) (k0_pay4 c)
      = head 640 Facts₀.slices_S256x768_o0_640_S256x64 Facts₀.slices_S2048x768_o0_640_S2048x64 (k0_pay2 a) (k0_pay3 b) (k0_pay4 c) := rfl
theorem pay_at_704 (a : Vec F S1x256x768 .f32) (b c : Vec F S1x2048x768 .f32) :
    k0_pay1 (k0_pay29 (k0_pay4 c)) (k0_pay30 (k0_pay2 a) (k0_pay3 b))
      = head 704 Facts₀.slices_S256x768_o0_704_S256x64 Facts₀.slices_S2048x768_o0_704_S2048x64 (k0_pay2 a) (k0_pay3 b) (k0_pay4 c) := rfl

end AnyInstance

/-! ## The block function -/

/-- Entry (0, r, c) of the output block from the three input blocks: attention of query row `r` against the 2048 keys
    and values of the batch, within the head of column `c`. -/
def blockAttn (x0 : Vec Ideal S1x256x768 .f32) (x1 x2 : Vec Ideal S1x2048x768 .f32) : S1x256x768.Idx → EReal := fun y =>
  rowK scaleBits ninfBits oneBits (fun d' : Fin 64 => x0 (ix3 (0 : Fin 1) (y 1) (headCol (y 2) d')))
    (fun (t : Fin 2048) (d' : Fin 64) => x1 (ix3 (0 : Fin 1) t (headCol (y 2) d'))) (fun t : Fin 2048 => x2 (ix3 (0 : Fin 1) t (y 2)))

theorem zero3 : (![0, 0, 0] : Fin 3 → Nat) = fun _ => 0 := funext fun a => by fin_cases a <;> rfl

/-- A whole block loaded and its unit axis dropped reads `(r, c)` at `(0, r, c)`. -/
theorem q_block_apply (x0 : Vec Ideal S1x256x768 .f32) (r : Fin 256) (c : Fin 768) :
    k0_pay2 (F := Ideal) (View.ld x0 r0_0) (ix2 r c) = x0 (ix3 (0 : Fin 1) r c) := by
  unfold k0_pay2
  rw [View.ld_unit_zero (S := S1x256x768) zero3]
  exact shapeCast_1ab_ab_apply _ _ r c
theorem k_block_apply (x1 : Vec Ideal S1x2048x768 .f32) (t : Fin 2048) (c : Fin 768) :
    k0_pay3 (F := Ideal) (View.ld x1 r0_1) (ix2 t c) = x1 (ix3 (0 : Fin 1) t c) := by
  unfold k0_pay3
  rw [View.ld_unit_zero (S := S1x2048x768) zero3]
  exact shapeCast_1ab_ab_apply _ _ t c
theorem v_block_apply (x2 : Vec Ideal S1x2048x768 .f32) (t : Fin 2048) (c : Fin 768) :
    k0_pay4 (F := Ideal) (View.ld x2 r0_1) (ix2 t c) = x2 (ix3 (0 : Fin 1) t c) := by
  unfold k0_pay4
  rw [View.ld_unit_zero (S := S1x2048x768) zero3]
  exact shapeCast_1ab_ab_apply _ _ t c

/-- The head at a column offset `o` that is a multiple of 64, read at a local index of the store's rectangle, is the
    block function at that index placed in the block: the rectangle puts local column `d` at column `o + d`, whose head
    starts at `o`. -/
theorem head_piece (o : Nat) (ho : o + 64 ≤ 768) (h64 : o % 64 = 0) (hq : S256x768.Slices ![0, o] S256x64) (hk : S2048x768.Slices ![0, o] S2048x64)
    (inb : ∀ a, (![0, 0, o] : Fin 3 → Nat) a + S1x256x64.size a ≤ S1x256x768.size a)
    (x0 : Vec Ideal S1x256x768 .f32) (x1 x2 : Vec Ideal S1x2048x768 .f32) (x : S1x256x64.Idx) :
    head (F := Ideal) o hq hk (k0_pay2 (View.ld x0 r0_0)) (k0_pay3 (View.ld x1 r0_1)) (k0_pay4 (View.ld x2 r0_1)) x
      = blockAttn x0 x1 x2 ((Rect.unit (s := S1x256x768) ![0, 0, o] S1x256x64.size inb).emb x) := by
  obtain ⟨u, r, d, rfl⟩ : ∃ (u : Fin 1) (r : Fin 256) (d : Fin 64), x = ix3 u r d := ⟨x 0, x 1, x 2, eq_ix3 x⟩
  rw [head_apply o ho]
  unfold blockAttn
  have c1 : (Rect.unit (s := S1x256x768) ![0, 0, o] S1x256x64.size inb).emb (ix3 u r d) 1 = r := Fin.ext (by
    show 0 + 1 * r.val = r.val; omega)
  have c2 : (Rect.unit (s := S1x256x768) ![0, 0, o] S1x256x64.size inb).emb (ix3 u r d) 2 = colAt o ho d := Fin.ext (by
    show o + 1 * d.val = o + d.val; omega)
  have hc : ∀ d' : Fin 64, headCol (colAt o ho d) d' = colAt o ho d' := fun d' => Fin.ext (by
    have := d.isLt; have := d'.isLt
    show (o + d.val) / 64 * 64 + d'.val = o + d'.val; omega)
  rw [c1, c2]
  simp only [q_block_apply, k_block_apply, v_block_apply, hc]

/-- THE BLOCK: what the twelve stores leave in the output block is the block function of the input blocks. -/
theorem out_block_eq (x0 : Vec Ideal S1x256x768 .f32) (x1 x2 : Vec Ideal S1x2048x768 .f32) :
    out0_3 (F := Ideal) x0 x1 x2 = blockAttn x0 x1 x2 := by
  funext y
  unfold out0_3
  refine View.canon_apply_of_pieces (Val := Elt Ideal) (S := S1x256x768) (e := .f32) (blockAttn x0 x1 x2) _ ?_ y (cover0_3 _ _ _ _ _ _ _ _ _ _ _ _ y)
  intro p hp
  simp only [List.mem_cons, List.not_mem_nil, or_false] at hp
  rcases hp with rfl | rfl | rfl | rfl | rfl | rfl | rfl | rfl | rfl | rfl | rfl | rfl
  · exact fun x => (congrFun (pay_at_704 _ _ _) x).trans (head_piece 704 (by omega) (by omega) _ _ Facts₀.inb_S1x256x768_S1x256x64_0_0_704 x0 x1 x2 x)
  · exact fun x => (congrFun (pay_at_640 _ _ _) x).trans (head_piece 640 (by omega) (by omega) _ _ Facts₀.inb_S1x256x768_S1x256x64_0_0_640 x0 x1 x2 x)
  · exact fun x => (congrFun (pay_at_576 _ _ _) x).trans (head_piece 576 (by omega) (by omega) _ _ Facts₀.inb_S1x256x768_S1x256x64_0_0_576 x0 x1 x2 x)
  · exact fun x => (congrFun (pay_at_512 _ _ _) x).trans (head_piece 512 (by omega) (by omega) _ _ Facts₀.inb_S1x256x768_S1x256x64_0_0_512 x0 x1 x2 x)
  · exact fun x => (congrFun (pay_at_448 _ _ _) x).trans (head_piece 448 (by omega) (by omega) _ _ Facts₀.inb_S1x256x768_S1x256x64_0_0_448 x0 x1 x2 x)
  · exact fun x => (congrFun (pay_at_384 _ _ _) x).trans (head_piece 384 (by omega) (by omega) _ _ Facts₀.inb_S1x256x768_S1x256x64_0_0_384 x0 x1 x2 x)
  · exact fun x => (congrFun (pay_at_320 _ _ _) x).trans (head_piece 320 (by omega) (by omega) _ _ Facts₀.inb_S1x256x768_S1x256x64_0_0_320 x0 x1 x2 x)
  · exact fun x => (congrFun (pay_at_256 _ _ _) x).trans (head_piece 256 (by omega) (by omega) _ _ Facts₀.inb_S1x256x768_S1x256x64_0_0_256 x0 x1 x2 x)
  · exact fun x => (congrFun (pay_at_192 _ _ _) x).trans (head_piece 192 (by omega) (by omega) _ _ Facts₀.inb_S1x256x768_S1x256x64_0_0_192 x0 x1 x2 x)
  · exact fun x => (congrFun (pay_at_128 _ _ _) x).trans (head_piece 128 (by omega) (by omega) _ _ Facts₀.inb_S1x256x768_S1x256x64_0_0_128 x0 x1 x2 x)
  · exact fun x => (congrFun (pay_at_64 _ _ _) x).trans (head_piece 64 (by omega) (by omega) _ _ Facts₀.inb_S1x256x768_S1x256x64_0_0_64 x0 x1 x2 x)
  · exact fun x => (congrFun (pay_at_0 _ _ _) x).trans (head_piece 0 (by omega) (by omega) _ _ Facts₀.inb_S1x256x768_S1x256x64_0_0_0 x0 x1 x2 x)

end Cert.KernelIdeal.Block

end
-- ==== Proof.KernelArray.lean ====
/-
  The kernel's output ARRAY as one function of its argument arrays. The grid has 2 × 8 points; point (b, iq) stages
  rows `256 iq … 256 iq + 255` of batch `b` of the queries, and all 2048 rows of batch `b` of the keys and of the
  values, and writes back rows `256 iq … 256 iq + 255` of batch `b` of the output. The block function of those
  three blocks is therefore the whole-array attention read through the output's block; the sixteen output blocks
  tile the array (batch `b`, row `s` lies in the block of point (b, s / 256)), so the array ends holding the
  whole-array attention of the three arguments.
-/
import proofs.«139607_g74105365725242_cont_9to1_m_705_5_alg».proof.Proof.Gen.KernelIdeal.Value
import proofs.«139607_g74105365725242_cont_9to1_m_705_5_alg».proof.Proof.Block

set_option maxRecDepth 16384

noncomputable section

open scoped BigOperators

namespace Cert.KernelIdeal.Whole

open Cert.KernelIdeal Cert.KernelIdeal.Gen Cert.KernelIdeal.Block Cert.Attention Idealize.ShloMosaic Idealize.ShloMosaic.TcCoe
  Idealize.ShloMosaic.ValueIdx Idealize.SL.Sem
open Idealize.ShloMosaic.Pipeline (Dat)

variable (m : (ℓ : Loc nD τ sig) → Buf (Elt Ideal) ℓ) (ρ : Dev nD → PrngReg)

/-- The printed index maps, decided over the sixteen grid points: the query window moves with the output window on the
    batch and row-block axes; the key and value windows move with it on the batch axis and sit at row block 0; every
    window sits at column block 0; and the output's block indices stay in their ranges. -/
theorem idx_facts : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) ≤ 1 ∧ win0_3.index t (1 : Fin 3) ≤ 7 :=
  (by decide +kernel : ∀ t : Fin grid0.N, _)

/-- Every (batch, row block) pair is some point's output block. -/
theorem idx_onto : ∀ (q0 : Fin 2) (q1 : Fin 8), ∃ t : Fin cfg0.N, win0_3.index t = ![q0.val, q1.val, 0] :=
  (by decide +kernel : ∀ (q0 : Fin 2) (q1 : Fin 8), ∃ t : Fin grid0.N, win0_3.index t = ![q0.val, q1.val, 0])

/-! ## The input blocks read where the output's block sits -/

/-- The query block at `(0, r, cc)` is the query array at batch `b`, row `s`, for the batch and row the output block
    places row `r` at. -/
theorem q_read (c : Dev nD) (t : Fin cfg0.N) (r : Fin 256) (cc : Fin 768) (b : Fin 2) (s : Fin 2048)
    (hb : b.val = win0_3.index t (0 : Fin 3)) (hs : s.val = win0_3.index t (1 : Fin 3) * 256 + r.val) :
    iblk m c 0 t (ix3 (0 : Fin 1) r cc) = V m c main_arg0 (ix3 b s cc) := by
  obtain ⟨e00, e01, e02, e10, e11, e12, e20, e21, e22, e32, l0, l1⟩ := idx_facts t
  show V m c main_arg0 (((cfg0.win 0).blk t).view.emb (ix3 (0 : Fin 1) r cc)) = V m c main_arg0 (ix3 b s cc)
  refine congrArg _ (funext fun a => Fin.ext ?_)
  match a with
  | ⟨0, _⟩ => show win0_0.index t (0 : Fin 3) * 1 + 1 * 0 = b.val; omega
  | ⟨1, _⟩ => show win0_0.index t (1 : Fin 3) * 256 + 1 * r.val = s.val; omega
  | ⟨2, _⟩ => show win0_0.index t (2 : Fin 3) * 768 + 1 * cc.val = cc.val; omega

/-- The key block at `(0, t', cc)` is the key array at batch `b`, row `t'`. -/
theorem k_read (c : Dev nD) (t : Fin cfg0.N) (t' : Fin 2048) (cc : Fin 768) (b : Fin 2)
    (hb : b.val = win0_3.index t (0 : Fin 3)) :
    iblk m c 1 t (ix3 (0 : Fin 1) t' cc) = V m c main_arg1 (ix3 b t' cc) := by
  obtain ⟨e00, e01, e02, e10, e11, e12, e20, e21, e22, e32, l0, l1⟩ := idx_facts t
  show V m c main_arg1 (((cfg0.win 1).blk t).view.emb (ix3 (0 : Fin 1) t' cc)) = V m c main_arg1 (ix3 b t' cc)
  refine congrArg _ (funext fun a => Fin.ext ?_)
  match a with
  | ⟨0, _⟩ => show win0_1.index t (0 : Fin 3) * 1 + 1 * 0 = b.val; omega
  | ⟨1, _⟩ => show win0_1.index t (1 : Fin 3) * 2048 + 1 * t'.val = t'.val; omega
  | ⟨2, _⟩ => show win0_1.index t (2 : Fin 3) * 768 + 1 * cc.val = cc.val; omega

/-- The value block at `(0, t', cc)` is the value array at batch `b`, row `t'`. -/
theorem v_read (c : Dev nD) (t : Fin cfg0.N) (t' : Fin 2048) (cc : Fin 768) (b : Fin 2)
    (hb : b.val = win0_3.index t (0 : Fin 3)) :
    iblk m c 2 t (ix3 (0 : Fin 1) t' cc) = V m c main_arg2 (ix3 b t' cc) := by
  obtain ⟨e00, e01, e02, e10, e11, e12, e20, e21, e22, e32, l0, l1⟩ := idx_facts t
  show V m c main_arg2 (((cfg0.win 2).blk t).view.emb (ix3 (0 : Fin 1) t' cc)) = V m c main_arg2 (ix3 b t' cc)
  refine congrArg _ (funext fun a => Fin.ext ?_)
  match a with
  | ⟨0, _⟩ => show win0_2.index t (0 : Fin 3) * 1 + 1 * 0 = b.val; omega
  | ⟨1, _⟩ => show win0_2.index t (1 : Fin 3) * 2048 + 1 * t'.val = t'.val; omega
  | ⟨2, _⟩ => show win0_2.index t (2 : Fin 3) * 768 + 1 * cc.val = cc.val; omega

/-- The block function of the three input blocks at `(u, r, cc)` is the whole-array attention at any array index with
    the batch and row the output block places `r` at, and column `cc`. -/
theorem block_eq_at (c : Dev nD) (t : Fin cfg0.N) (u : Fin 1) (r : Fin 256) (cc : Fin 768) (i : S2x2048x768.Idx)
    (hb : (i 0).val = win0_3.index t (0 : Fin 3)) (hs : (i 1).val = win0_3.index t (1 : Fin 3) * 256 + r.val) (h2 : i 2 = cc) :
    blockAttn (iblk m c 0 t) (iblk m c 1 t) (iblk m c 2 t) (ix3 u r cc)
      = attnK (V m c main_arg0) (V m c main_arg1) (V m c main_arg2) i := by
  show rowK scaleBits ninfBits oneBits (fun d' : Fin 64 => iblk m c 0 t (ix3 (0 : Fin 1) r (headCol cc d')))
        (fun (t' : Fin 2048) (d' : Fin 64) => iblk m c 1 t (ix3 (0 : Fin 1) t' (headCol cc d'))) (fun t' : Fin 2048 => iblk m c 2 t (ix3 (0 : Fin 1) t' cc))
      = rowK scaleBits ninfBits oneBits (fun d' : Fin 64 => V m c main_arg0 (ix3 (i 0) (i 1) (headCol (i 2) d')))
        (fun (t' : Fin 2048) (d' : Fin 64) => V m c main_arg1 (ix3 (i 0) t' (headCol (i 2) d'))) (fun t' : Fin 2048 => V m c main_arg2 (ix3 (i 0) t' (i 2)))
  rw [h2]
  have hq := fun cc' : Fin 768 => q_read m c t r cc' (i 0) (i 1) hb hs
  have hk := fun (t' : Fin 2048) (cc' : Fin 768) => k_read m c t t' cc' (i 0) hb
  have hv := fun (t' : Fin 2048) (cc' : Fin 768) => v_read m c t t' cc' (i 0) hb
  simp only [hq, hk, hv]

/-- WHAT POINT `t` WRITES BACK is block `t` of the whole-array attention of the argument arrays. -/
theorem flushed_eq (c : Dev nD) (t : Fin cfg0.N) :
    (dats m 0 c).flushed 3 t
      = ((cfg0.win 3).blk t).view.read (Elt Ideal) (attnK (V m c main_arg0) (V m c main_arg1) (V m c main_arg2)) := by
  rw [Cert.KernelIdeal.Value.flushed3, out_block_eq]
  obtain ⟨e00, e01, e02, e10, e11, e12, e20, e21, e22, e32, l0, l1⟩ := idx_facts t
  funext j
  obtain ⟨u, r, cc, rfl⟩ : ∃ (u : Fin 1) (r : Fin 256) (cc : Fin 768), j = ix3 u r cc := ⟨j 0, j 1, j 2, eq_ix3 j⟩
  show blockAttn (iblk m c 0 t) (iblk m c 1 t) (iblk m c 2 t) (ix3 u r cc)
      = attnK (V m c main_arg0) (V m c main_arg1) (V m c main_arg2) (((cfg0.win 3).blk t).view.emb (ix3 u r cc))
  refine block_eq_at m c t u r cc _ ?_ ?_ ?_
  · show win0_3.index t (0 : Fin 3) * 1 + 1 * u.val = win0_3.index t (0 : Fin 3); omega
  · show win0_3.index t (1 : Fin 3) * 256 + 1 * r.val = win0_3.index t (1 : Fin 3) * 256 + r.val; omega
  · exact Fin.ext (by show win0_3.index t (2 : Fin 3) * 768 + 1 * cc.val = cc.val; omega)

/-! ## The output's blocks tile the array -/

/-- An index of the array is in point `t`'s block iff each coordinate is in the block's range on its axis. -/
theorem mem_blk (t : Fin cfg0.N) (i : S2x2048x768.Idx) :
    i ∈ ((cfg0.win 3).blk t).view.set ↔ ∀ a : Fin 3, win0_3.index t a * S1x256x768.size a ≤ (i a).val ∧ (i a).val < win0_3.index t a * S1x256x768.size a + S1x256x768.size a := by
  show i ∈ ((View.whole main_v0).slice (win0_3.rect t)).set ↔ _
  rw [View.set_slice_whole, Rect.mem_set_unit]
  exact Iff.rfl

/-- Every index of the output array lies in the block of the point with its batch and its row's block of 256. -/
theorem cover (i : S2x2048x768.Idx) : ∃ t : Fin cfg0.N, (cfg0.win 3).flush t = true ∧ i ∈ ((cfg0.win 3).blk t).view.set := by
  have hi0 : (i 0).val < 2 := (i 0).isLt
  have hi1 : (i 1).val < 2048 := (i 1).isLt
  have hi2 : (i 2).val < 768 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 768 ≤ (i 2).val ∧ (i 2).val < win0_3.index t (2 : Fin 3) * 768 + 768; omega

/-! ## The array after the run, and the run -/

/-- THE ARRAY after the run is the whole-array attention of the three argument arrays as launched. -/
theorem final (c : Dev nD) :
    (dats m 0 c).arrAt 3 cfg0.N
      = attnK (m ((c : Thread nD τ).loc main_arg0)) (m ((c : Thread nD τ).loc main_arg1)) (m ((c : Thread nD τ).loc main_arg2)) :=
  (dats m 0 c).arrAt_eq_of_cover 3 (attnK (V m c main_arg0) (V m c main_arg1) (V m c main_arg2)) (fun t _ => flushed_eq m c t) cover

/-- The kernel's run: every weakly fair execution ends with the result array at the whole-array attention of the
    arguments, the arguments unchanged. -/
theorem run : θ_run defs (onTc (τ := τ) (main (F := Ideal))) ⟨m, fun _ => 0, ρ⟩ fun r => ∀ c : Dev nD,
      r.2.mem ((c : Thread nD τ).loc main_v0)
        = attnK (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Whole

end
-- ==== Proof.lean ====
/-
  A fused attention kernel against the plain softmax-attention reference, over the extended reals, for finite inputs.

  Inputs q, k, v : [2, 2048, 768] are read as twelve heads of sixty-four columns. For batch `b`, query row `s` and
  column `c` of head `h = c / 64`, with scores `S_t` over the 2048 keys of the batch, `M = max_t S_t` and
  `e_t = exp (S_t − M)`:
    the kernel computes   `S_t = ∑_d (q[b, s, 64h + d] · 1/8) · k[b, t, 64h + d]`   and   `(∑_t e_t · v[b, t, c]) · (1 / ∑_t e_t)`;
    the reference computes `S_t = (∑_d q[b, s, 64h + d] · k[b, t, 64h + d]) · 1/8`   and   `∑_t (e_t / ∑_t' e_t') · v[b, t, c]`.
  On finite inputs every quantity is a real number and `∑_t e_t ≥ 1 > 0`, so the two are equal by distributivity in ℝ
  (the factor 1/8 leaves the sum over `d`, the factor `1 / ∑ e` leaves the sum over `t`). A change of float format is
  the identity over the extended reals, and a matrix product into a zero accumulator, a lane sum and a lane maximum are
  the plain sum and the fold of `max` over the reduced axis, in any order.

  The pieces: the kernel's result array is the whole-array attention in the kernel's order (one head of the body read
  at an index; the twelve stores of the output block as one function of the block index; the sixteen blocks tiling the
  array); the reference's result is the whole-array attention in the reference's order (its operations read one at a
  time at an index); the precondition makes every entry real; and the two orders agree on real entries.
-/
import proofs.«139607_g74105365725242_cont_9to1_m_705_5_alg».proof.Defs
import proofs.«139607_g74105365725242_cont_9to1_m_705_5_alg».proof.Proof.Gen.Kernel
import proofs.«139607_g74105365725242_cont_9to1_m_705_5_alg».proof.Proof.Gen.Kernel.Skeleton
import proofs.«139607_g74105365725242_cont_9to1_m_705_5_alg».proof.Proof.Gen.Kernel.Launch
import proofs.«139607_g74105365725242_cont_9to1_m_705_5_alg».proof.Proof.Gen.Kernel.Points
import proofs.«139607_g74105365725242_cont_9to1_m_705_5_alg».proof.Proof.Gen.Kernel.Frame
import proofs.«139607_g74105365725242_cont_9to1_m_705_5_alg».proof.Proof.Gen.KernelIdeal
import proofs.«139607_g74105365725242_cont_9to1_m_705_5_alg».proof.Proof.Gen.KernelIdeal.Skeleton
import proofs.«139607_g74105365725242_cont_9to1_m_705_5_alg».proof.Proof.Gen.KernelIdeal.Launch
import proofs.«139607_g74105365725242_cont_9to1_m_705_5_alg».proof.Proof.Gen.KernelIdeal.Points
import proofs.«139607_g74105365725242_cont_9to1_m_705_5_alg».proof.Proof.Gen.KernelIdeal.Frame
import proofs.«139607_g74105365725242_cont_9to1_m_705_5_alg».proof.Proof.Gen.ReferenceIdeal
import proofs.«139607_g74105365725242_cont_9to1_m_705_5_alg».proof.Proof.Gen.Pre_finite_inputs
import proofs.«139607_g74105365725242_cont_9to1_m_705_5_alg».proof.Proof.Gen.KernelIdeal.Value
import proofs.«139607_g74105365725242_cont_9to1_m_705_5_alg».proof.Proof.Gen.ReferenceIdeal.Run
import proofs.«139607_g74105365725242_cont_9to1_m_705_5_alg».proof.Proof.Gen.ReferenceIdeal.Read
import proofs.«139607_g74105365725242_cont_9to1_m_705_5_alg».proof.Proof.Softmax
import proofs.«139607_g74105365725242_cont_9to1_m_705_5_alg».proof.Proof.Finite
import proofs.«139607_g74105365725242_cont_9to1_m_705_5_alg».proof.Proof.RefAttention
import proofs.«139607_g74105365725242_cont_9to1_m_705_5_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the kernel over the extended reals. -/
theorem frame_ki : Cert.frame_KernelIdeal := fun m ρ _ => Cert.KernelIdeal.Gen.frame m ρ

/-- The reference is a straight line of host operations: its run, with the result's value dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the whole-array attention of the arguments: the kernel in its own order of operations, the
    reference in its order, and on finite arguments the two orders give the same extended real at every index. -/
theorem algebraic : Cert.algebraic_KernelIdeal_ReferenceIdeal := by
  intro m ρ m' ρ' hpre hagree
  refine ⟨fun c => Cert.Attention.attnK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hq, hk, hv⟩ := Cert.Attention.finite_of_pre _ _ _ (hpre c)
  rw [Cert.ReferenceIdeal.Read.val_main_v22_eq, Cert.ReferenceIdeal.RefValue.ref_eq, (hagree c).1, (hagree c).2.1, (hagree c).2.2]
  exact (Cert.Attention.attnK_eq_attnR _ _ _ hq hk hv).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
